-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x768 : Shape := ⟨3, ![32, 512, 768]⟩
abbrev S512x512 : Shape := ⟨2, ![512, 512]⟩
abbrev S3072x768 : Shape := ⟨2, ![3072, 768]⟩
abbrev S768 : Shape := ⟨1, ![768]⟩
abbrev S_ : Shape := ⟨0, ![]⟩

class Facts : Prop where
  bcast_S_S32x512x768 : S_.BroadcastsInDim S32x512x768 (![] : Fin 0 → Fin S32x512x768.rank)
  reducesTo_S32x512x768_S_d0_1_2 : S32x512x768.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S3072x768 : S_.BroadcastsInDim S3072x768 (![] : Fin 0 → Fin S3072x768.rank)
  reducesTo_S3072x768_S_d0_1 : S3072x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S32x512x768 .f32) (main_arg1 : FVec F S512x512 .f32) (main_arg2 : FVec F S3072x768 .f32) (main_arg3 : FVec F S768 .f32) : IVec S_ 1 :=
  let main_v0 : FVec F S32x512x768 .f32 := Host.absf main_arg0
  let main_cst : FVec F S_ .f32 := constant S_ .f32 0x7F800000#32
  let main_v1 : FVec F S32x512x768 .f32 := broadcastInDim S32x512x768 ![] bcast_S_S32x512x768 main_cst
  let main_v2 : IVec S32x512x768 1 := cmpf .olt main_v0 main_v1
  let main_c : IVec S_ 1 := constantI S_ 1 1#1
  let main_v3 : IVec S_ 1 := (fun x v => Host.reduce IntOp.andi x v reducesTo_S32x512x768_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S3072x768 .f32 := Host.absf main_arg2
  let main_cst_2 : FVec F S_ .f32 := constant S_ .f32 0x7F800000#32
  let main_v10 : FVec F S3072x768 .f32 := broadcastInDim S3072x768 ![] bcast_S_S3072x768 main_cst_2
  let main_v11 : IVec S3072x768 1 := cmpf .olt main_v9 main_v10
  let main_c_3 : IVec S_ 1 := constantI S_ 1 1#1
  let main_v12 : IVec S_ 1 := (fun x v => Host.reduce IntOp.andi x v reducesTo_S3072x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S32x512x768 : Shape := ⟨3, ![32, 512, 768]⟩
abbrev S512x512 : Shape := ⟨2, ![512, 512]⟩
abbrev S3072x768 : Shape := ⟨2, ![3072, 768]⟩
abbrev S768 : Shape := ⟨1, ![768]⟩
abbrev S_ : Shape := ⟨0, ![]⟩
abbrev S512 : Shape := ⟨1, ![512]⟩
abbrev S1x512 : Shape := ⟨2, ![1, 512]⟩
abbrev S512x768x32 : Shape := ⟨3, ![512, 768, 32]⟩
abbrev S512x24576 : Shape := ⟨2, ![512, 24576]⟩
abbrev S4x512x24576 : Shape := ⟨3, ![4, 512, 24576]⟩
abbrev S512x1024 : Shape := ⟨2, ![512, 1024]⟩
abbrev S4x512x1024 : Shape := ⟨3, ![4, 512, 1024]⟩
abbrev S1x512x1024 : Shape := ⟨3, ![1, 512, 1024]⟩
abbrev S4x512x768x32 : Shape := ⟨4, ![4, 512, 768, 32]⟩
abbrev S32x512x768x4 : Shape := ⟨4, ![32, 512, 768, 4]⟩
abbrev S16384x3072 : Shape := ⟨2, ![16384, 3072]⟩
abbrev S16384x768 : Shape := ⟨2, ![16384, 768]⟩
abbrev S512x3072 : Shape := ⟨2, ![512, 3072]⟩
abbrev S512x768 : Shape := ⟨2, ![512, 768]⟩
abbrev S1x768 : Shape := ⟨2, ![1, 768]⟩

abbrev nBuf : Space → Nat
  | .hbm => 42
  | .vmem => 11
  | .smem => 0
  | _ => 0

abbrev bufTy : (tb : Table) → Fin (tcTables nBuf tb) → BufTy
  | .hbm, ⟨0, _⟩ => ⟨S32x512x768, .f32⟩
  | .hbm, ⟨1, _⟩ => ⟨S512x512, .f32⟩
  | .hbm, ⟨2, _⟩ => ⟨S3072x768, .f32⟩
  | .hbm, ⟨3, _⟩ => ⟨S768, .f32⟩
  | .hbm, ⟨4, _⟩ => ⟨S512x512, .i32⟩
  | .hbm, ⟨5, _⟩ => ⟨S512x512, .i32⟩
  | .hbm, ⟨6, _⟩ => ⟨S_, .i32⟩
  | .hbm, ⟨7, _⟩ => ⟨S512x512, .i32⟩
  | .hbm, ⟨8, _⟩ => ⟨S512x512, .i32⟩
  | .hbm, ⟨9, _⟩ => ⟨S512x512, .i1⟩
  | .hbm, ⟨10, _⟩ => ⟨S512x512, .f32⟩
  | .hbm, ⟨11, _⟩ => ⟨S512x512, .f32⟩
  | .hbm, ⟨12, _⟩ => ⟨S_, .f32⟩
  | .hbm, ⟨13, _⟩ => ⟨S512, .f32⟩
  | .hbm, ⟨14, _⟩ => ⟨S_, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S_, .f32⟩
  | .hbm, ⟨19, _⟩ => ⟨S512, .f32⟩
  | .hbm, ⟨20, _⟩ => ⟨S512, .i1⟩
  | .hbm, ⟨21, _⟩ => ⟨S_, .f32⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S1x512, .f32⟩
  | .hbm, ⟨26, _⟩ => ⟨S512x512, .f32⟩
  | .hbm, ⟨27, _⟩ => ⟨S512x512, .f32⟩
  | .hbm, ⟨28, _⟩ => ⟨S512x512, .f32⟩
  | .hbm, ⟨29, _⟩ => ⟨S1x512, .f32⟩
  | .hbm, ⟨30, _⟩ => ⟨S512x512, .f32⟩
  | .hbm, ⟨31, _⟩ => ⟨S512x512, .f32⟩
  | .hbm, ⟨32, _⟩ => ⟨S512x512, .bf16⟩
  | .hbm, ⟨33, _⟩ => ⟨S512x768x32, .f32⟩
  | .hbm, ⟨34, _⟩ => ⟨S512x24576, .f32⟩
  | .hbm, ⟨35, _⟩ => ⟨S4x512x24576, .f32⟩
  | .hbm, ⟨36, _⟩ => ⟨S4x512x768x32, .f32⟩
  | .hbm, ⟨37, _⟩ => ⟨S32x512x768x4, .f32⟩
  | .hbm, ⟨38, _⟩ => ⟨S16384x3072, .f32⟩
  | .hbm, ⟨39, _⟩ => ⟨S3072x768, .bf16⟩
  | .hbm, ⟨40, _⟩ => ⟨S16384x768, .f32⟩
  | .hbm, ⟨41, _⟩ => ⟨S32x512x768, .f32⟩
  | .local _ .vmem, ⟨0, _⟩ => ⟨S512x512, .bf16⟩
  | .local _ .vmem, ⟨1, _⟩ => ⟨S512x1024, .f32⟩
  | .local _ .vmem, ⟨2, _⟩ => ⟨S512x1024, .f32⟩
  | .local _ .vmem, ⟨3, _⟩ => ⟨S4x512x1024, .f32⟩
  | .local _ .vmem, ⟨4, _⟩ => ⟨S4x512x1024, .f32⟩
  | .local _ .vmem, ⟨5, _⟩ => ⟨S512x3072, .f32⟩
  | .local _ .vmem, ⟨6, _⟩ => ⟨S512x3072, .f32⟩
  | .local _ .vmem, ⟨7, _⟩ => ⟨S3072x768, .bf16⟩
  | .local _ .vmem, ⟨8, _⟩ => ⟨S768, .f32⟩
  | .local _ .vmem, ⟨9, _⟩ => ⟨S512x768, .f32⟩
  | .local _ .vmem, ⟨10, _⟩ => ⟨S512x768, .f32⟩
  | _, _ => ⟨S32x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_v10 : Ref sig .tc := ⟨.hbm, 20, rfl⟩
abbrev main_cst_1 : Ref sig .tc := ⟨.hbm, 21, rfl⟩
abbrev main_call1_v0 : Ref sig .tc := ⟨.hbm, 22, rfl⟩
abbrev main_call1_v1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x3072 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3072x768 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S512x512 : S_.BroadcastsInDim S512x512 (![] : Fin 0 → Fin S512x512.rank)
  reducesTo_S512x512_S512_d1 : S512x512.ReducesTo [1] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  transposes_S512x512_S512x512_1_0 : S512x512.Transposes [1, 0] S512x512
  bitsLt_bf16_f32 : FTy.bits .bf16 < FTy.bits .f32
  transposes_S32x512x768_S512x768x32_1_2_0 : S32x512x768.Transposes [1, 2, 0] S512x768x32
  shapeCasts_S512x768x32_S512x24576 : S512x768x32.ShapeCasts S512x24576
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S4x512x1024_S1x512x1024_0_0_0 : ∀ a, (![0, 0, 0] : Fin 3 → Nat) a + S1x512x1024.size a ≤ S4x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  inb_S4x512x1024_S1x512x1024_1_0_0 : ∀ a, (![1, 0, 0] : Fin 3 → Nat) a + S1x512x1024.size a ≤ S4x512x1024.size a
  inb_S4x512x1024_S1x512x1024_2_0_0 : ∀ a, (![2, 0, 0] : Fin 3 → Nat) a + S1x512x1024.size a ≤ S4x512x1024.size a
  inb_S4x512x1024_S1x512x1024_3_0_0 : ∀ a, (![3, 0, 0] : Fin 3 → Nat) a + S1x512x1024.size a ≤ S4x512x1024.size a
  shapeCasts_S4x512x24576_S4x512x768x32 : S4x512x24576.ShapeCasts S4x512x768x32
  transposes_S4x512x768x32_S32x512x768x4_3_1_2_0 : S4x512x768x32.Transposes [3, 1, 2, 0] S32x512x768x4
  shapeCasts_S32x512x768x4_S16384x3072 : S32x512x768x4.ShapeCasts S16384x3072
  inb_S512x3072_S512x3072_0_0 : ∀ a, (![0, 0] : Fin 2 → Nat) a + S512x3072.size a ≤ S512x3072.size a
  h_S512x3072 : 0 < S512x3072.numel
  shapeCasts_S512x3072_S512x3072 : S512x3072.ShapeCasts S512x3072
  inb_S3072x768_S3072x768_0_0 : ∀ a, (![0, 0] : Fin 2 → Nat) a + S3072x768.size a ≤ S3072x768.size a
  h_S3072x768 : 0 < S3072x768.numel
  shapeCasts_S3072x768_S3072x768 : S3072x768.ShapeCasts S3072x768
  inb_S768_S768_0 : ∀ a, (![0] : Fin 1 → Nat) a + S768.size a ≤ S768.size a
  h_S768 : 0 < S768.numel
  shapeCasts_S768_S1x768 : S768.ShapeCasts S1x768
  broadcasts_S1x768_S512x768 : S1x768.Broadcasts S512x768
  inb_S512x768_S512x768_0_0 : ∀ a, (![0, 0] : Fin 2 → Nat) a + S512x768.size a ≤ S512x768.size a
  h_S512x768 : 0 < S512x768.numel
  shapeCasts_S16384x768_S32x512x768 : S16384x768.ShapeCasts S32x512x768
  dot_S512x512_S512x1024_S512x1024_1_0_0_1_n_n_wf : DotDims.WF S512x512 S512x1024 S512x1024 [1] [0] [0] [1] [] []
  dot_S512x3072_S3072x768_S512x768_1_0_0_1_n_n_wf : DotDims.WF S512x3072 S3072x768 S512x768 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .bf16 = 32 ∨ (Rect.block (s := S512x512) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x24576.size a
  hwx0_1 : ∀ i : grid0.Coords, EltTy.bits .f32 = 32 ∨ (Rect.block (s := S512x24576) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512x1024.size a ≤ S4x512x24576.size a
  hwx0_2 : ∀ i : grid0.Coords, EltTy.bits .f32 = 32 ∨ (Rect.block (s := S4x512x24576) S4x512x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x3072.size a ≤ S16384x3072.size a
  hwx1_0 : ∀ i : grid1.Coords, EltTy.bits .f32 = 32 ∨ (Rect.block (s := S16384x3072) S512x3072.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3072x768.size a ≤ S3072x768.size a
  hwx1_1 : ∀ i : grid1.Coords, EltTy.bits .bf16 = 32 ∨ (Rect.block (s := S3072x768) S3072x768.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S768.size a ≤ S768.size a
  hwx1_2 : ∀ i : grid1.Coords, EltTy.bits .f32 = 32 ∨ (Rect.block (s := S768) S768.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x768.size a ≤ S16384x768.size a
  hwx1_3 : ∀ i : grid1.Coords, EltTy.bits .f32 = 32 ∨ (Rect.block (s := S16384x768) S512x768.size (cc1_transform_3 i) (hinb1_3 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x3072_S3072x768_S512x768_1_0_0_1_n_n : DotDims S512x3072 S3072x768 S512x768 where
  lhsContracting := [1]
  rhsContracting := [0]
  lhsNonContracting := [0]
  rhsNonContracting := [1]
  lhsBatch := []
  rhsBatch := []
  wf := dot_S512x3072_S3072x768_S512x768_1_0_0_1_n_n_wf

abbrev win0_0 : Pipeline.Window sig grid0 :=
  Pipeline.Window.ofSpec (Memref.whole main_v19) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v21) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S4x512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v25) S512x3072.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S3072x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S512x768.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x512x768 : Shape := ⟨3, ![32, 512, 768]⟩
abbrev S512x512 : Shape := ⟨2, ![512, 512]⟩
abbrev S3072x768 : Shape := ⟨2, ![3072, 768]⟩
abbrev S768 : Shape := ⟨1, ![768]⟩
abbrev S_ : Shape := ⟨0, ![]⟩
abbrev S512 : Shape := ⟨1, ![512]⟩
abbrev S1x512 : Shape := ⟨2, ![1, 512]⟩
abbrev S512x768x32 : Shape := ⟨3, ![512, 768, 32]⟩
abbrev S512x24576 : Shape := ⟨2, ![512, 24576]⟩
abbrev S1x512x24576 : Shape := ⟨3, ![1, 512, 24576]⟩
abbrev S4x512x24576 : Shape := ⟨3, ![4, 512, 24576]⟩
abbrev S4x512x768x32 : Shape := ⟨4, ![4, 512, 768, 32]⟩
abbrev S32x512x768x4 : Shape := ⟨4, ![32, 512, 768, 4]⟩
abbrev S16384x3072 : Shape := ⟨2, ![16384, 3072]⟩
abbrev S16384x768 : Shape := ⟨2, ![16384, 768]⟩
abbrev S1x768 : Shape := ⟨2, ![1, 768]⟩

abbrev nBuf : Space → Nat
  | .hbm => 58
  | .vmem => 0
  | .smem => 0
  | _ => 0

abbrev bufTy : (tb : Table) → Fin (tcTables nBuf tb) → BufTy
  | .hbm, ⟨0, _⟩ => ⟨S32x512x768, .f32⟩
  | .hbm, ⟨1, _⟩ => ⟨S512x512, .f32⟩
  | .hbm, ⟨2, _⟩ => ⟨S3072x768, .f32⟩
  | .hbm, ⟨3, _⟩ => ⟨S768, .f32⟩
  | .hbm, ⟨4, _⟩ => ⟨S512x512, .i32⟩
  | .hbm, ⟨5, _⟩ => ⟨S512x512, .i32⟩
  | .hbm, ⟨6, _⟩ => ⟨S_, .i32⟩
  | .hbm, ⟨7, _⟩ => ⟨S512x512, .i32⟩
  | .hbm, ⟨8, _⟩ => ⟨S512x512, .i32⟩
  | .hbm, ⟨9, _⟩ => ⟨S512x512, .i1⟩
  | .hbm, ⟨10, _⟩ => ⟨S512x512, .f32⟩
  | .hbm, ⟨11, _⟩ => ⟨S512x512, .f32⟩
  | .hbm, ⟨12, _⟩ => ⟨S_, .f32⟩
  | .hbm, ⟨13, _⟩ => ⟨S512, .f32⟩
  | .hbm, ⟨14, _⟩ => ⟨S_, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S_, .f32⟩
  | .hbm, ⟨19, _⟩ => ⟨S512, .f32⟩
  | .hbm, ⟨20, _⟩ => ⟨S512, .i1⟩
  | .hbm, ⟨21, _⟩ => ⟨S_, .f32⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S1x512, .f32⟩
  | .hbm, ⟨26, _⟩ => ⟨S512x512, .f32⟩
  | .hbm, ⟨27, _⟩ => ⟨S512x512, .f32⟩
  | .hbm, ⟨28, _⟩ => ⟨S512x512, .f32⟩
  | .hbm, ⟨29, _⟩ => ⟨S1x512, .f32⟩
  | .hbm, ⟨30, _⟩ => ⟨S512x512, .f32⟩
  | .hbm, ⟨31, _⟩ => ⟨S512x512, .f32⟩
  | .hbm, ⟨32, _⟩ => ⟨S512x768x32, .f32⟩
  | .hbm, ⟨33, _⟩ => ⟨S512x24576, .f32⟩
  | .hbm, ⟨34, _⟩ => ⟨S512x24576, .f32⟩
  | .hbm, ⟨35, _⟩ => ⟨S512x24576, .f32⟩
  | .hbm, ⟨36, _⟩ => ⟨S_, .f32⟩
  | .hbm, ⟨37, _⟩ => ⟨S512x24576, .f32⟩
  | .hbm, ⟨38, _⟩ => ⟨S512x24576, .f32⟩
  | .hbm, ⟨39, _⟩ => ⟨S512x24576, .f32⟩
  | .hbm, ⟨40, _⟩ => ⟨S512x24576, .f32⟩
  | .hbm, ⟨41, _⟩ => ⟨S_, .f32⟩
  | .hbm, ⟨42, _⟩ => ⟨S512x24576, .f32⟩
  | .hbm, ⟨43, _⟩ => ⟨S512x24576, .f32⟩
  | .hbm, ⟨44, _⟩ => ⟨S512x24576, .f32⟩
  | .hbm, ⟨45, _⟩ => ⟨S1x512x24576, .f32⟩
  | .hbm, ⟨46, _⟩ => ⟨S1x512x24576, .f32⟩
  | .hbm, ⟨47, _⟩ => ⟨S1x512x24576, .f32⟩
  | .hbm, ⟨48, _⟩ => ⟨S1x512x24576, .f32⟩
  | .hbm, ⟨49, _⟩ => ⟨S4x512x24576, .f32⟩
  | .hbm, ⟨50, _⟩ => ⟨S4x512x768x32, .f32⟩
  | .hbm, ⟨51, _⟩ => ⟨S32x512x768x4, .f32⟩
  | .hbm, ⟨52, _⟩ => ⟨S16384x3072, .f32⟩
  | .hbm, ⟨53, _⟩ => ⟨S16384x768, .f32⟩
  | .hbm, ⟨54, _⟩ => ⟨S1x768, .f32⟩
  | .hbm, ⟨55, _⟩ => ⟨S16384x768, .f32⟩
  | .hbm, ⟨56, _⟩ => ⟨S16384x768, .f32⟩
  | .hbm, ⟨57, _⟩ => ⟨S32x512x768, .f32⟩
  | _, _ => ⟨S32x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_v10 : Ref sig .tc := ⟨.hbm, 20, rfl⟩
abbrev main_cst_1 : Ref sig .tc := ⟨.hbm, 21, rfl⟩
abbrev main_call1_v0 : Ref sig .tc := ⟨.hbm, 22, rfl⟩
abbrev main_call1_v1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  reducesTo_S512x512_S512_d1 : S512x512.ReducesTo [1] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  transposes_S512x512_S512x512_1_0 : S512x512.Transposes [1, 0] S512x512
  transposes_S32x512x768_S512x768x32_1_2_0 : S32x512x768.Transposes [1, 2, 0] S512x768x32
  shapeCasts_S512x768x32_S512x24576 : S512x768x32.ShapeCasts S512x24576
  bcast_S_S512x24576 : S_.BroadcastsInDim S512x24576 (![] : Fin 0 → Fin S512x24576.rank)
  bcast_S512x24576_S1x512x24576_1_2 : S512x24576.BroadcastsInDim S1x512x24576 (![1, 2] : Fin 2 → Fin S1x512x24576.rank)
  concatenates_S1x512x24576_S1x512x24576_S1x512x24576_S1x512x24576_S4x512x24576_d0 : Shape.Concatenates [S1x512x24576, S1x512x24576, S1x512x24576, S1x512x24576] S4x512x24576 0
  shapeCasts_S4x512x24576_S4x512x768x32 : S4x512x24576.ShapeCasts S4x512x768x32
  transposes_S4x512x768x32_S32x512x768x4_3_1_2_0 : S4x512x768x32.Transposes [3, 1, 2, 0] S32x512x768x4
  shapeCasts_S32x512x768x4_S16384x3072 : S32x512x768x4.ShapeCasts S16384x3072
  bcast_S768_S1x768_1 : S768.BroadcastsInDim S1x768 (![1] : Fin 1 → Fin S1x768.rank)
  bcast_S1x768_S16384x768_0_1 : S1x768.BroadcastsInDim S16384x768 (![0, 1] : Fin 2 → Fin S16384x768.rank)
  shapeCasts_S16384x768_S32x512x768 : S16384x768.ShapeCasts S32x512x768
  dot_S512x512_S512x24576_S512x24576_1_0_0_1_n_n_wf : DotDims.WF S512x512 S512x24576 S512x24576 [1] [0] [0] [1] [] []
  dot_S16384x3072_S3072x768_S16384x768_1_0_0_1_n_n_wf : DotDims.WF S16384x3072 S3072x768 S16384x768 [1] [0] [0] [1] [] []

variable [Facts₀]

def dot_S512x512_S512x24576_S512x24576_1_0_0_1_n_n : DotDims S512x512 S512x24576 S512x24576 where
  lhsContracting := [1]
  rhsContracting := [0]
  lhsNonContracting := [0]
  rhsNonContracting := [1]
  lhsBatch := []
  rhsBatch := []
  wf := dot_S512x512_S512x24576_S512x24576_1_0_0_1_n_n_wf
def dot_S16384x3072_S3072x768_S16384x768_1_0_0_1_n_n : DotDims S16384x3072 S3072x768 S16384x768 where
  lhsContracting := [1]
  rhsContracting := [0]
  lhsNonContracting := [0]
  rhsNonContracting := [1]
  lhsBatch := []
  rhsBatch := []
  wf := dot_S16384x3072_S3072x768_S16384x768_1_0_0_1_n_n_wf

class Facts : Prop extends Facts₀ where

variable [Facts]
-- ==== Proof.Products.lean ====
/-
  The four matrix products of the two programs, read at an output index, at the ideal values.

  The kernel multiplies the 512×512 diffusion matrix with a 512×1024 column block three times and a 512×3072 row block
  with the 3072×768 weights once; the reference multiplies the same matrices whole (512×512 by 512×24576, and
  16384×3072 by 3072×768). Every one of them contracts the left operand's second axis with the right operand's first,
  so at an output index (r, c) each is the sum over k of left (r, k) times right (k, c): a `tpu.matmul` into a zero
  accumulator and the host's `dot_general` are that same sum on the extended reals, with no rounding left.
  The re-indexing of the contraction's one axis by its coordinate is stated once for any such product; each of the
  four records then only says where its operand indices sit.
-/
import proofs.«120347_j85452669321742_1_alg».proof.Proof.Gen.KernelIdeal
import proofs.«120347_j85452669321742_1_alg».proof.Proof.Gen.ReferenceIdeal
import Idealize.ShloMosaic.Lib.ValueIdx
import Idealize.ShloMosaic.PureOps.Ideal.Laws

noncomputable section

open scoped BigOperators
open Idealize.ShloMosaic Idealize.ShloMosaic.ValueIdx

namespace Cert.Products

/-- The index (r, c) of a two-axis array from a row and a column. -/
abbrev at2 {n0 n1 : Nat} (r : Fin n0) (c : Fin n1) : (⟨2, ![n0, n1]⟩ : Shape).Idx := ix2 r c

/-- A product contracting the left operand's columns with the right operand's rows, its one contraction axis of
    extent `K`: the sum over the contraction index is the sum over k of left (r, k) · right (k, c). -/
theorem sum_rows_cols {M K N : Nat} (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : (⟨2, ![M, K]⟩ : Shape).Idx → EReal) (r : (⟨2, ![K, N]⟩ : Shape).Idx → EReal) (i : (⟨2, ![M, N]⟩ : Shape).Idx) :
    ∑ q : D.contr.Idx, l (D.lhsIdx i q) * r (D.rhsIdx i q)
      = ∑ k : Fin K, l (at2 ⟨(i 0).val, (i 0).isLt⟩ k) * r (at2 k ⟨(i 1).val, (i 1).isLt⟩) := by
  rw [← Equiv.sum_comp (contrEquiv1 D K hr hs).symm]
  refine Finset.sum_congr rfl fun k _ => ?_
  have hk := contrEquiv1_symm_val D K hr hs k
  have el : D.lhsIdx i ((contrEquiv1 D K hr hs).symm k) = at2 ⟨(i 0).val, (i 0).isLt⟩ k := funext fun a => Fin.ext (by
    match a with
    | ⟨0, _⟩ => exact hl0 _ _
    | ⟨1, _⟩ => exact (hl1 _ _).trans hk)
  have er : D.rhsIdx i ((contrEquiv1 D K hr hs).symm k) = at2 k ⟨(i 1).val, (i 1).isLt⟩ := funext fun a => Fin.ext (by
    match a with
    | ⟨0, _⟩ => exact (hr0 _ _).trans hk
    | ⟨1, _⟩ => exact hr1 _ _)
  exact congrArg₂ (· * ·) (congrArg l el) (congrArg r er)

/-! ## The kernel's 512×512 by 512×1024 product -/

section KernelDiffusion
open Cert.KernelIdeal Cert.KernelIdeal.Gen

theorem kd_lhs_0 (i : S512x1024.Idx) (q : Cert.KernelIdeal.dot_S512x512_S512x1024_S512x1024_1_0_0_1_n_n.contr.Idx) :
    (Cert.KernelIdeal.dot_S512x512_S512x1024_S512x1024_1_0_0_1_n_n.lhsIdx i q 0).val = (i 0).val := by
  unfold DotDims.lhsIdx
  rw [dif_neg (show ¬(0 : Fin S512x512.rank) ∈ Cert.KernelIdeal.dot_S512x512_S512x1024_S512x1024_1_0_0_1_n_n.lhsBatch by decide), dif_pos (show (0 : Fin S512x512.rank) ∈ Cert.KernelIdeal.dot_S512x512_S512x1024_S512x1024_1_0_0_1_n_n.lhsNonContracting by decide)]
  rfl
theorem kd_lhs_1 (i : S512x1024.Idx) (q : Cert.KernelIdeal.dot_S512x512_S512x1024_S512x1024_1_0_0_1_n_n.contr.Idx) :
    (Cert.KernelIdeal.dot_S512x512_S512x1024_S512x1024_1_0_0_1_n_n.lhsIdx i q 1).val = (q ⟨0, by decide⟩).val :=
  Cert.KernelIdeal.dot_S512x512_S512x1024_S512x1024_1_0_0_1_n_n.lhsIdx_val_of_single rfl i q
theorem kd_rhs_0 (i : S512x1024.Idx) (q : Cert.KernelIdeal.dot_S512x512_S512x1024_S512x1024_1_0_0_1_n_n.contr.Idx) :
    (Cert.KernelIdeal.dot_S512x512_S512x1024_S512x1024_1_0_0_1_n_n.rhsIdx i q 0).val = (q ⟨0, by decide⟩).val :=
  Cert.KernelIdeal.dot_S512x512_S512x1024_S512x1024_1_0_0_1_n_n.rhsIdx_val_of_single rfl i q
theorem kd_rhs_1 (i : S512x1024.Idx) (q : Cert.KernelIdeal.dot_S512x512_S512x1024_S512x1024_1_0_0_1_n_n.contr.Idx) :
    (Cert.KernelIdeal.dot_S512x512_S512x1024_S512x1024_1_0_0_1_n_n.rhsIdx i q 1).val = (i 1).val := by
  unfold DotDims.rhsIdx
  rw [dif_neg (show ¬(1 : Fin S512x1024.rank) ∈ Cert.KernelIdeal.dot_S512x512_S512x1024_S512x1024_1_0_0_1_n_n.rhsBatch by decide), dif_pos (show (1 : Fin S512x1024.rank) ∈ Cert.KernelIdeal.dot_S512x512_S512x1024_S512x1024_1_0_0_1_n_n.rhsNonContracting by decide)]
  rfl

/-- The kernel's diffusion product into a zero accumulator, at (r, c): the sum over k of s (r, k) · x (k, c). -/
theorem kernel_diffusion_apply {φ₁ φ₂ : FTy} (s : FVec Ideal S512x512 φ₁) (x : FVec Ideal S512x1024 φ₂) (i : S512x1024.Idx) :
    matmul Cert.KernelIdeal.dot_S512x512_S512x1024_S512x1024_1_0_0_1_n_n none s x (constant S512x1024 .f32 0x00000000#32) i
      = ∑ k : Fin 512, s (at2 ⟨(i 0).val, (i 0).isLt⟩ k) * x (at2 k ⟨(i 1).val, (i 1).isLt⟩) := by
  simp only [matmul]
  rw [Ideal.matmul_constant_zero_apply]
  exact sum_rows_cols Cert.KernelIdeal.dot_S512x512_S512x1024_S512x1024_1_0_0_1_n_n rfl rfl kd_lhs_0 kd_lhs_1 kd_rhs_0 kd_rhs_1 s x i

end KernelDiffusion

/-! ## The kernel's 512×3072 by 3072×768 product -/

section KernelProjection
open Cert.KernelIdeal Cert.KernelIdeal.Gen

theorem kp_lhs_0 (i : S512x768.Idx) (q : Cert.KernelIdeal.dot_S512x3072_S3072x768_S512x768_1_0_0_1_n_n.contr.Idx) :
    (Cert.KernelIdeal.dot_S512x3072_S3072x768_S512x768_1_0_0_1_n_n.lhsIdx i q 0).val = (i 0).val := by
  unfold DotDims.lhsIdx
  rw [dif_neg (show ¬(0 : Fin S512x3072.rank) ∈ Cert.KernelIdeal.dot_S512x3072_S3072x768_S512x768_1_0_0_1_n_n.lhsBatch by decide), dif_pos (show (0 : Fin S512x3072.rank) ∈ Cert.KernelIdeal.dot_S512x3072_S3072x768_S512x768_1_0_0_1_n_n.lhsNonContracting by decide)]
  rfl
theorem kp_lhs_1 (i : S512x768.Idx) (q : Cert.KernelIdeal.dot_S512x3072_S3072x768_S512x768_1_0_0_1_n_n.contr.Idx) :
    (Cert.KernelIdeal.dot_S512x3072_S3072x768_S512x768_1_0_0_1_n_n.lhsIdx i q 1).val = (q ⟨0, by decide⟩).val :=
  Cert.KernelIdeal.dot_S512x3072_S3072x768_S512x768_1_0_0_1_n_n.lhsIdx_val_of_single rfl i q
theorem kp_rhs_0 (i : S512x768.Idx) (q : Cert.KernelIdeal.dot_S512x3072_S3072x768_S512x768_1_0_0_1_n_n.contr.Idx) :
    (Cert.KernelIdeal.dot_S512x3072_S3072x768_S512x768_1_0_0_1_n_n.rhsIdx i q 0).val = (q ⟨0, by decide⟩).val :=
  Cert.KernelIdeal.dot_S512x3072_S3072x768_S512x768_1_0_0_1_n_n.rhsIdx_val_of_single rfl i q
theorem kp_rhs_1 (i : S512x768.Idx) (q : Cert.KernelIdeal.dot_S512x3072_S3072x768_S512x768_1_0_0_1_n_n.contr.Idx) :
    (Cert.KernelIdeal.dot_S512x3072_S3072x768_S512x768_1_0_0_1_n_n.rhsIdx i q 1).val = (i 1).val := by
  unfold DotDims.rhsIdx
  rw [dif_neg (show ¬(1 : Fin S3072x768.rank) ∈ Cert.KernelIdeal.dot_S512x3072_S3072x768_S512x768_1_0_0_1_n_n.rhsBatch by decide), dif_pos (show (1 : Fin S3072x768.rank) ∈ Cert.KernelIdeal.dot_S512x3072_S3072x768_S512x768_1_0_0_1_n_n.rhsNonContracting by decide)]
  rfl

/-- The kernel's projection product into a zero accumulator, at (r, c): the sum over k of x (r, k) · w (k, c). -/
theorem kernel_projection_apply {φ₁ φ₂ : FTy} (x : FVec Ideal S512x3072 φ₁) (w : FVec Ideal S3072x768 φ₂) (i : S512x768.Idx) :
    matmul Cert.KernelIdeal.dot_S512x3072_S3072x768_S512x768_1_0_0_1_n_n none x w (constant S512x768 .f32 0x00000000#32) i
      = ∑ k : Fin 3072, x (at2 ⟨(i 0).val, (i 0).isLt⟩ k) * w (at2 k ⟨(i 1).val, (i 1).isLt⟩) := by
  simp only [matmul]
  rw [Ideal.matmul_constant_zero_apply]
  exact sum_rows_cols Cert.KernelIdeal.dot_S512x3072_S3072x768_S512x768_1_0_0_1_n_n rfl rfl kp_lhs_0 kp_lhs_1 kp_rhs_0 kp_rhs_1 x w i

end KernelProjection

/-! ## The reference's 512×512 by 512×24576 product -/

section ReferenceDiffusion
open Cert.ReferenceIdeal Cert.ReferenceIdeal.Gen

theorem rd_lhs_0 (i : S512x24576.Idx) (q : Cert.ReferenceIdeal.dot_S512x512_S512x24576_S512x24576_1_0_0_1_n_n.contr.Idx) :
    (Cert.ReferenceIdeal.dot_S512x512_S512x24576_S512x24576_1_0_0_1_n_n.lhsIdx i q 0).val = (i 0).val := by
  unfold DotDims.lhsIdx
  rw [dif_neg (show ¬(0 : Fin S512x512.rank) ∈ Cert.ReferenceIdeal.dot_S512x512_S512x24576_S512x24576_1_0_0_1_n_n.lhsBatch by decide), dif_pos (show (0 : Fin S512x512.rank) ∈ Cert.ReferenceIdeal.dot_S512x512_S512x24576_S512x24576_1_0_0_1_n_n.lhsNonContracting by decide)]
  rfl
theorem rd_lhs_1 (i : S512x24576.Idx) (q : Cert.ReferenceIdeal.dot_S512x512_S512x24576_S512x24576_1_0_0_1_n_n.contr.Idx) :
    (Cert.ReferenceIdeal.dot_S512x512_S512x24576_S512x24576_1_0_0_1_n_n.lhsIdx i q 1).val = (q ⟨0, by decide⟩).val :=
  Cert.ReferenceIdeal.dot_S512x512_S512x24576_S512x24576_1_0_0_1_n_n.lhsIdx_val_of_single rfl i q
theorem rd_rhs_0 (i : S512x24576.Idx) (q : Cert.ReferenceIdeal.dot_S512x512_S512x24576_S512x24576_1_0_0_1_n_n.contr.Idx) :
    (Cert.ReferenceIdeal.dot_S512x512_S512x24576_S512x24576_1_0_0_1_n_n.rhsIdx i q 0).val = (q ⟨0, by decide⟩).val :=
  Cert.ReferenceIdeal.dot_S512x512_S512x24576_S512x24576_1_0_0_1_n_n.rhsIdx_val_of_single rfl i q
theorem rd_rhs_1 (i : S512x24576.Idx) (q : Cert.ReferenceIdeal.dot_S512x512_S512x24576_S512x24576_1_0_0_1_n_n.contr.Idx) :
    (Cert.ReferenceIdeal.dot_S512x512_S512x24576_S512x24576_1_0_0_1_n_n.rhsIdx i q 1).val = (i 1).val := by
  unfold DotDims.rhsIdx
  rw [dif_neg (show ¬(1 : Fin S512x24576.rank) ∈ Cert.ReferenceIdeal.dot_S512x512_S512x24576_S512x24576_1_0_0_1_n_n.rhsBatch by decide), dif_pos (show (1 : Fin S512x24576.rank) ∈ Cert.ReferenceIdeal.dot_S512x512_S512x24576_S512x24576_1_0_0_1_n_n.rhsNonContracting by decide)]
  rfl

/-- The reference's diffusion product, at (r, c): the sum over k of s (r, k) · x (k, c). -/
theorem reference_diffusion_apply {φ₁ φ₂ : FTy} (s : FVec Ideal S512x512 φ₁) (x : FVec Ideal S512x24576 φ₂) (i : S512x24576.Idx) :
    Host.dotGeneral Cert.ReferenceIdeal.dot_S512x512_S512x24576_S512x24576_1_0_0_1_n_n none s x i
      = ∑ k : Fin 512, s (at2 ⟨(i 0).val, (i 0).isLt⟩ k) * x (at2 k ⟨(i 1).val, (i 1).isLt⟩) := by
  simp only [Host.dotGeneral]
  rw [Ideal.dotGeneral_apply]
  exact sum_rows_cols Cert.ReferenceIdeal.dot_S512x512_S512x24576_S512x24576_1_0_0_1_n_n rfl rfl rd_lhs_0 rd_lhs_1 rd_rhs_0 rd_rhs_1 s x i

end ReferenceDiffusion

/-! ## The reference's 16384×3072 by 3072×768 product -/

section ReferenceProjection
open Cert.ReferenceIdeal Cert.ReferenceIdeal.Gen

theorem rp_lhs_0 (i : S16384x768.Idx) (q : Cert.ReferenceIdeal.dot_S16384x3072_S3072x768_S16384x768_1_0_0_1_n_n.contr.Idx) :
    (Cert.ReferenceIdeal.dot_S16384x3072_S3072x768_S16384x768_1_0_0_1_n_n.lhsIdx i q 0).val = (i 0).val := by
  unfold DotDims.lhsIdx
  rw [dif_neg (show ¬(0 : Fin S16384x3072.rank) ∈ Cert.ReferenceIdeal.dot_S16384x3072_S3072x768_S16384x768_1_0_0_1_n_n.lhsBatch by decide), dif_pos (show (0 : Fin S16384x3072.rank) ∈ Cert.ReferenceIdeal.dot_S16384x3072_S3072x768_S16384x768_1_0_0_1_n_n.lhsNonContracting by decide)]
  rfl
theorem rp_lhs_1 (i : S16384x768.Idx) (q : Cert.ReferenceIdeal.dot_S16384x3072_S3072x768_S16384x768_1_0_0_1_n_n.contr.Idx) :
    (Cert.ReferenceIdeal.dot_S16384x3072_S3072x768_S16384x768_1_0_0_1_n_n.lhsIdx i q 1).val = (q ⟨0, by decide⟩).val :=
  Cert.ReferenceIdeal.dot_S16384x3072_S3072x768_S16384x768_1_0_0_1_n_n.lhsIdx_val_of_single rfl i q
theorem rp_rhs_0 (i : S16384x768.Idx) (q : Cert.ReferenceIdeal.dot_S16384x3072_S3072x768_S16384x768_1_0_0_1_n_n.contr.Idx) :
    (Cert.ReferenceIdeal.dot_S16384x3072_S3072x768_S16384x768_1_0_0_1_n_n.rhsIdx i q 0).val = (q ⟨0, by decide⟩).val :=
  Cert.ReferenceIdeal.dot_S16384x3072_S3072x768_S16384x768_1_0_0_1_n_n.rhsIdx_val_of_single rfl i q
theorem rp_rhs_1 (i : S16384x768.Idx) (q : Cert.ReferenceIdeal.dot_S16384x3072_S3072x768_S16384x768_1_0_0_1_n_n.contr.Idx) :
    (Cert.ReferenceIdeal.dot_S16384x3072_S3072x768_S16384x768_1_0_0_1_n_n.rhsIdx i q 1).val = (i 1).val := by
  unfold DotDims.rhsIdx
  rw [dif_neg (show ¬(1 : Fin S3072x768.rank) ∈ Cert.ReferenceIdeal.dot_S16384x3072_S3072x768_S16384x768_1_0_0_1_n_n.rhsBatch by decide), dif_pos (show (1 : Fin S3072x768.rank) ∈ Cert.ReferenceIdeal.dot_S16384x3072_S3072x768_S16384x768_1_0_0_1_n_n.rhsNonContracting by decide)]
  rfl

/-- The reference's projection product, at (r, c): the sum over k of x (r, k) · w (k, c). -/
theorem reference_projection_apply {φ₁ φ₂ : FTy} (x : FVec Ideal S16384x3072 φ₁) (w : FVec Ideal S3072x768 φ₂) (i : S16384x768.Idx) :
    Host.dotGeneral Cert.ReferenceIdeal.dot_S16384x3072_S3072x768_S16384x768_1_0_0_1_n_n none x w i
      = ∑ k : Fin 3072, x (at2 ⟨(i 0).val, (i 0).isLt⟩ k) * w (at2 k ⟨(i 1).val, (i 1).isLt⟩) := by
  simp only [Host.dotGeneral]
  rw [Ideal.dotGeneral_apply]
  exact sum_rows_cols Cert.ReferenceIdeal.dot_S16384x3072_S3072x768_S16384x768_1_0_0_1_n_n rfl rfl rp_lhs_0 rp_lhs_1 rp_rhs_0 rp_rhs_1 x w i

end ReferenceProjection

end Cert.Products

end
-- ==== Proof.Recurrence.lean ====
/-
  The diffusion recurrence, whole and by column blocks.

  With s the 512×512 diffusion matrix and x the 512×24576 array of node features (one column per feature and batch
  entry), the reference computes x₁ = s·x, x₂ = 2·(s·x₁) − x, x₃ = 2·(s·x₂) − x₁ and stacks x, x₁, x₂, x₃ along a new
  leading axis. Every step acts on each column of x by itself: the kernel therefore takes the columns 1024 at a time,
  and on column block t it computes the same three steps of that block. Here: the reference's steps and stack in the
  reference's own spelling, the stack read at an index, and that each kernel step of column block t of x is column
  block t of the reference's step of x — a product with s commutes with restricting the right operand's columns,
  because the sum over k of s (r, k) · x (k, c) only reads column c.
-/
import proofs.«120347_j85452669321742_1_alg».proof.Proof.Products
import proofs.«120347_j85452669321742_1_alg».proof.Proof.Gen.KernelIdeal.Skeleton
import Idealize.ShloMosaic.Lib.Pipeline.Value

noncomputable section

open scoped BigOperators
open Idealize.ShloMosaic Idealize.ShloMosaic.ValueIdx Cert.Products

namespace Cert.Recurrence

/-! ## The reference's steps -/

section Reference
open Cert.ReferenceIdeal Cert.ReferenceIdeal.Gen

/-- The constant 2 at every entry of a 512×24576 array. -/
def twice : FVec Ideal S512x24576 .f32 :=
  broadcastInDim S512x24576 ![] bcast_S_S512x24576 (constant S_ .f32 0x40000000#32)

/-- x₁ = s·x. -/
def step1 (s : FVec Ideal S512x512 .f32) (x : FVec Ideal S512x24576 .f32) : FVec Ideal S512x24576 .f32 :=
  Host.dotGeneral dot_S512x512_S512x24576_S512x24576_1_0_0_1_n_n none s x
/-- x₂ = 2·(s·x₁) − x. -/
def step2 (s : FVec Ideal S512x512 .f32) (x : FVec Ideal S512x24576 .f32) : FVec Ideal S512x24576 .f32 :=
  subf (mulf twice (Host.dotGeneral dot_S512x512_S512x24576_S512x24576_1_0_0_1_n_n none s (step1 s x))) x
/-- x₃ = 2·(s·x₂) − x₁. -/
def step3 (s : FVec Ideal S512x512 .f32) (x : FVec Ideal S512x24576 .f32) : FVec Ideal S512x24576 .f32 :=
  subf (mulf twice (Host.dotGeneral dot_S512x512_S512x24576_S512x24576_1_0_0_1_n_n none s (step2 s x))) (step1 s x)
/-- A 512×24576 array as one slice of the stack. -/
def slice (y : FVec Ideal S512x24576 .f32) : FVec Ideal S1x512x24576 .f32 :=
  broadcastInDim S1x512x24576 ![1, 2] bcast_S512x24576_S1x512x24576_1_2 y
/-- x, x₁, x₂, x₃ along a new leading axis. -/
def stack (s : FVec Ideal S512x512 .f32) (x : FVec Ideal S512x24576 .f32) : FVec Ideal S4x512x24576 .f32 :=
  concatenate S4x512x24576 0 [⟨S1x512x24576, slice x⟩, ⟨S1x512x24576, slice (step1 s x)⟩, ⟨S1x512x24576, slice (step2 s x)⟩, ⟨S1x512x24576, slice (step3 s x)⟩] concatenates_S1x512x24576_S1x512x24576_S1x512x24576_S1x512x24576_S4x512x24576_d0

/-- A slice at (0, r, c) is the array at (r, c). -/
theorem slice_apply (y : FVec Ideal S512x24576 .f32) (i : S1x512x24576.Idx) :
    slice y i = y (at2 ⟨(i 1).val, (i 1).isLt⟩ ⟨(i 2).val, (i 2).isLt⟩) := by
  unfold slice
  exact broadcastInDim_apply _ bcast_S512x24576_S1x512x24576_1_2 y i _ (fun a => match a with
    | ⟨0, _⟩ => by show (i 1).val = if (512 : Nat) = 1 then 0 else (i 1).val; rw [if_neg (by decide)]
    | ⟨1, _⟩ => by show (i 2).val = if (24576 : Nat) = 1 then 0 else (i 2).val; rw [if_neg (by decide)])

/-- The stack at (n, r, c) is its n-th array at (r, c): the piece of the concatenation whose span holds n. -/
theorem stack_piece (s : FVec Ideal S512x512 .f32) (x : FVec Ideal S512x24576 .f32) (j : S4x512x24576.Idx)
    (n : Nat) (hn : n < 4) (y : FVec Ideal S512x24576 .f32)
    (hy : [(⟨S1x512x24576, slice x⟩ : (s : Shape) × (s.Idx → EReal)), ⟨S1x512x24576, slice (step1 s x)⟩, ⟨S1x512x24576, slice (step2 s x)⟩, ⟨S1x512x24576, slice (step3 s x)⟩][n]'hn = ⟨S1x512x24576, slice y⟩)
    (hj : (j 0).val = n) :
    stack s x j = y (at2 ⟨(j 1).val, (j 1).isLt⟩ ⟨(j 2).val, (j 2).isLt⟩) := by
  unfold stack
  refine (concatenate_apply_piece (0 : Fin S4x512x24576.rank)
    [⟨S1x512x24576, slice x⟩, ⟨S1x512x24576, slice (step1 s x)⟩, ⟨S1x512x24576, slice (step2 s x)⟩, ⟨S1x512x24576, slice (step3 s x)⟩]
    concatenates_S1x512x24576_S1x512x24576_S1x512x24576_S1x512x24576_S4x512x24576_d0 j n hn S1x512x24576 (slice y) hy rfl n ?_
    (ix3 ⟨0, Nat.one_pos⟩ ⟨(j 1).val, (j 1).isLt⟩ ⟨(j 2).val, (j 2).isLt⟩) ?_ ?_).trans (slice_apply y _)
  · match n, hn with
    | 0, _ => rfl
    | 1, _ => rfl
    | 2, _ => rfl
    | 3, _ => rfl
  · intro b hb
    match b with
    | ⟨0, _⟩ => exact absurd rfl hb
    | ⟨1, _⟩ => rfl
    | ⟨2, _⟩ => rfl
  · show n + 0 = (j 0).val
    omega

end Reference

/-! ## Column blocks -/

section Blocks
open Cert.KernelIdeal Cert.KernelIdeal.Gen

/-- Where entry (r, c) of column block t sits in the whole array: (r, 1024·t + c). -/
def inBlock (t : Fin 24) (y : S512x1024.Idx) : Cert.ReferenceIdeal.S512x24576.Idx :=
  at2 ⟨(y 0).val, (y 0).isLt⟩ ⟨1024 * t.val + (y 1).val, by
    have h1 : (y 1).val < 1024 := (y 1).isLt
    have ht : t.val < 24 := t.isLt
    omega⟩

/-- Column block t of a 512×24576 array. -/
def colBlock (t : Fin 24) (z : FVec Ideal Cert.ReferenceIdeal.S512x24576 .f32) : FVec Ideal S512x1024 .f32 :=
  fun y => z (inBlock t y)

/-- The kernel's product of s with column block t of z is column block t of the reference's product of s with z. -/
theorem product_colBlock (t : Fin 24) (s : FVec Ideal S512x512 .bf16) (z : FVec Ideal Cert.ReferenceIdeal.S512x24576 .f32) :
    matmul dot_S512x512_S512x1024_S512x1024_1_0_0_1_n_n none s (truncf .bf16 (colBlock t z) bitsLt_bf16_f32) (constant S512x1024 .f32 0x00000000#32)
      = colBlock t (Host.dotGeneral Cert.ReferenceIdeal.dot_S512x512_S512x24576_S512x24576_1_0_0_1_n_n none s z) := by
  funext y
  rw [kernel_diffusion_apply]
  show _ = Host.dotGeneral Cert.ReferenceIdeal.dot_S512x512_S512x24576_S512x24576_1_0_0_1_n_n none s z (inBlock t y)
  rw [reference_diffusion_apply]
  rfl

/-- The kernel's first step on column block t. -/
theorem pay3_colBlock (t : Fin 24) (s : FVec Ideal S512x512 .bf16) (x : FVec Ideal Cert.ReferenceIdeal.S512x24576 .f32) :
    k0_pay3 s (colBlock t x) = colBlock t (step1 s x) := by
  unfold k0_pay3 k0_pay1 k0_pay2
  dsimp only
  rw [shapeCast_self, shapeCast_self]
  exact product_colBlock t s x

/-- The kernel's second step on column block t. -/
theorem pay4_colBlock (t : Fin 24) (s : FVec Ideal S512x512 .bf16) (x : FVec Ideal Cert.ReferenceIdeal.S512x24576 .f32) :
    k0_pay4 s (colBlock t x) = colBlock t (step2 s x) := by
  unfold k0_pay4
  dsimp only
  rw [pay3_colBlock]
  unfold k0_pay1 k0_pay2
  dsimp only
  rw [shapeCast_self, shapeCast_self, product_colBlock]
  rfl

/-- The kernel's third step on column block t. -/
theorem step3_colBlock (t : Fin 24) (s : FVec Ideal S512x512 .bf16) (x : FVec Ideal Cert.ReferenceIdeal.S512x24576 .f32) :
    subf (mulf (broadcast S512x1024 (Scalar.ofBits .f32 0x40000000#32 : Ideal .f32))
        (matmul dot_S512x512_S512x1024_S512x1024_1_0_0_1_n_n none s (truncf .bf16 (colBlock t (step2 s x)) bitsLt_bf16_f32) (constant S512x1024 .f32 0x00000000#32)))
        (colBlock t (step1 s x))
      = colBlock t (step3 s x) := by
  rw [product_colBlock]
  rfl

/-- A 512×1024 block as stored into one slice of the 4×512×1024 output block. -/
def slab (y : FVec Ideal S512x1024 .f32) : FVec Ideal S1x512x1024 .f32 :=
  shapeCast S1x512x1024 y shapeCasts_S512x1024_S1x512x1024

/-- A slab at (0, r, c) is the block at (r, c). -/
theorem slab_apply (y : FVec Ideal S512x1024 .f32) (j : S1x512x1024.Idx) :
    slab y j = y (at2 ⟨(j 1).val, (j 1).isLt⟩ ⟨(j 2).val, (j 2).isLt⟩) := by
  unfold slab
  refine (shapeCast_addUnit_apply ![512, 1024] y shapeCasts_S512x1024_S1x512x1024 j).trans (congrArg y ?_)
  funext a
  match a with
  | ⟨0, _⟩ => rfl
  | ⟨1, _⟩ => rfl

/-- The body's four stores on column block t: x, x₁, x₂, x₃ of that block. -/
theorem pay5_colBlock (t : Fin 24) (x : FVec Ideal Cert.ReferenceIdeal.S512x24576 .f32) :
    k0_pay5 (colBlock t x) = slab (colBlock t x) := by
  unfold k0_pay5 k0_pay2 slab
  dsimp only
  rw [shapeCast_self]
theorem pay6_colBlock (t : Fin 24) (s : FVec Ideal S512x512 .bf16) (x : FVec Ideal Cert.ReferenceIdeal.S512x24576 .f32) :
    k0_pay6 s (colBlock t x) = slab (colBlock t (step1 s x)) := by
  unfold k0_pay6 slab
  dsimp only
  rw [pay3_colBlock]
theorem pay7_colBlock (t : Fin 24) (s : FVec Ideal S512x512 .bf16) (x : FVec Ideal Cert.ReferenceIdeal.S512x24576 .f32) :
    k0_pay7 s (colBlock t x) = slab (colBlock t (step2 s x)) := by
  unfold k0_pay7 slab
  dsimp only
  rw [pay4_colBlock]
theorem pay8_colBlock (t : Fin 24) (s : FVec Ideal S512x512 .bf16) (x : FVec Ideal Cert.ReferenceIdeal.S512x24576 .f32) :
    k0_pay8 s (colBlock t x) = slab (colBlock t (step3 s x)) := by
  unfold k0_pay8 slab
  dsimp only
  rw [pay4_colBlock, pay3_colBlock]
  unfold k0_pay1
  dsimp only
  rw [shapeCast_self, step3_colBlock]

end Blocks

end Cert.Recurrence

end
-- ==== Proof.Region0.lean ====
/-
  What the first pallas_call leaves in its output array.

  The region is entered with a 512×512 array s (its first window, one block, the whole array at every grid point) and a
  512×24576 array x (its second window: column block t at point t). At point t the body stores x, x₁, x₂, x₃ of that
  column block into the four slices of a 4×512×1024 staging block, which the pipeline writes back as column block t
  of the 4×512×24576 output. The 24 column blocks tile the output, and the block written at point t is block t of
  ONE array, the reference's stack of s and x (Recurrence.lean); so the output array ends holding that stack,
  whatever the region was entered with.
-/
import proofs.«120347_j85452669321742_1_alg».proof.Proof.Gen.KernelIdeal.Frame
import proofs.«120347_j85452669321742_1_alg».proof.Proof.Recurrence

set_option maxRecDepth 16384

noncomputable section

open Idealize.ShloMosaic Idealize.ShloMosaic.TcCoe Idealize.SL.Sem Idealize.ShloMosaic.ValueIdx
open Idealize.ShloMosaic.Pipeline (Dat)
open Cert.Products Cert.Recurrence

namespace Cert.KernelIdeal.Diffusion

open Cert.KernelIdeal Cert.KernelIdeal.Gen

variable (V : (c : Dev nD) → (b : Ref sig .tc) → Buf (Elt Ideal) ((c : Thread nD τ).loc b))

/-- The diffusion matrix and the feature array as the region finds them. -/
abbrev sArr (c : Dev nD) : FVec Ideal S512x512 .bf16 := V c main_v19
abbrev xArr (c : Dev nD) : FVec Ideal S512x24576 .f32 := V c main_v21
/-- The two input blocks at point t. -/
abbrev sBlk (c : Dev nD) (t : Fin cfg0.N) : FVec Ideal S512x512 .bf16 := iblk0 V c 0 t
abbrev xBlk (c : Dev nD) (t : Fin cfg0.N) : FVec Ideal S512x1024 .f32 := iblk0 V c 1 t

/-- A grid point as a column-block number. -/
def blockOf (t : Fin cfg0.N) : Fin 24 := ⟨t.val, by have h := t.isLt; have e : cfg0.N = 24 := N_0; omega⟩

/-- The three index maps over the grid: the matrix's block never moves; the feature block and the output block move
    along the columns with the point. -/
theorem index_maps : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 3) = 0 ∧ win0_2.index t (1 : Fin 3) = 0 ∧ win0_2.index t (2 : Fin 3) = t.val :=
  (by decide +kernel : ∀ t : Fin grid0.N, _)

theorem hz2 : (![0, 0] : Fin 2 → Nat) = fun _ => 0 := funext fun a => by fin_cases a <;> rfl

/-- The matrix's block is the whole matrix. -/
theorem sBlk_eq (c : Dev nD) (t : Fin cfg0.N) : sBlk V c t = sArr V c := by
  obtain ⟨e0, e1, -⟩ := index_maps t
  funext y
  show V c main_v19 (((cfg0.win 0).blk t).view.emb y) = V c main_v19 y
  refine congrArg _ (funext fun a => Fin.ext ?_)
  match a with
  | ⟨0, _⟩ => show win0_0.index t (0 : Fin 2) * 512 + 1 * (y 0).val = (y 0).val; rw [e0]; omega
  | ⟨1, _⟩ => show win0_0.index t (1 : Fin 2) * 512 + 1 * (y 1).val = (y 1).val; rw [e1]; omega

/-- The feature block at point t is column block t of the feature array. -/
theorem xBlk_eq (c : Dev nD) (t : Fin cfg0.N) : xBlk V c t = colBlock (blockOf t) (xArr V c) := by
  obtain ⟨-, -, e0, e1, -⟩ := index_maps t
  funext y
  show V c main_v21 (((cfg0.win 1).blk t).view.emb y) = V c main_v21 (inBlock (blockOf t) y)
  refine congrArg _ (funext fun a => Fin.ext ?_)
  match a with
  | ⟨0, _⟩ => show win0_1.index t (0 : Fin 2) * 512 + 1 * (y 0).val = (y 0).val; rw [e0]; omega
  | ⟨1, _⟩ => show win0_1.index t (1 : Fin 2) * 1024 + 1 * (y 1).val = 1024 * t.val + (y 1).val; rw [e1]; omega

/-- Where entry (n, r, c) of output block t sits in the output array: (n, r, 1024·t + c). -/
def inStack (t : Fin 24) (y : S4x512x1024.Idx) : Cert.ReferenceIdeal.S4x512x24576.Idx :=
  ix3 ⟨(y 0).val, (y 0).isLt⟩ ⟨(y 1).val, (y 1).isLt⟩ ⟨1024 * t.val + (y 2).val, by
    have h2 : (y 2).val < 1024 := (y 2).isLt
    have ht : t.val < 24 := t.isLt
    omega⟩

/-- One slice of the staging block against the stack: the slab of column block t of the n-th array, read at an index of
    the n-th store's rectangle, is the stack at that index moved into column block t. -/
theorem slab_stack (t : Fin 24) (s : FVec Ideal S512x512 .bf16) (x : FVec Ideal Cert.ReferenceIdeal.S512x24576 .f32)
    (n : Nat) (hn : n < 4) (y : FVec Ideal Cert.ReferenceIdeal.S512x24576 .f32)
    (hy : [(⟨Cert.ReferenceIdeal.S1x512x24576, slice x⟩ : (s : Shape) × (s.Idx → EReal)), ⟨Cert.ReferenceIdeal.S1x512x24576, slice (step1 s x)⟩, ⟨Cert.ReferenceIdeal.S1x512x24576, slice (step2 s x)⟩, ⟨Cert.ReferenceIdeal.S1x512x24576, slice (step3 s x)⟩][n]'hn = ⟨Cert.ReferenceIdeal.S1x512x24576, slice y⟩)
    (z : S1x512x1024.Idx) (w : S4x512x1024.Idx) (h0 : (w 0).val = n) (h1 : (w 1).val = (z 1).val) (h2 : (w 2).val = (z 2).val) :
    slab (colBlock t y) z = stack s x (inStack t w) := by
  rw [slab_apply, stack_piece s x (inStack t w) n hn y hy h0]
  show y (inBlock t _) = _
  refine congrArg y (funext fun a => Fin.ext ?_)
  match a with
  | ⟨0, _⟩ => exact h1.symm
  | ⟨1, _⟩ => show 1024 * t.val + (z 2).val = 1024 * t.val + (w 2).val; rw [h2]

/-- The staging block the body leaves on column block t is block t of the stack. -/
theorem out_colBlock (t : Fin 24) (s : FVec Ideal S512x512 .bf16) (x : FVec Ideal Cert.ReferenceIdeal.S512x24576 .f32) :
    out0_2 (F := Ideal) s (colBlock t x) = fun w => stack s x (inStack t w) := by
  funext w
  unfold out0_2
  refine View.canon_apply_of_pieces (Val := Elt Ideal) (S := S4x512x1024) (e := .f32) (fun w => stack s x (inStack t w)) _ ?_ w (cover0_2 _ _ _ _ w)
  intro p hp z
  simp only [List.mem_cons, List.not_mem_nil, or_false] at hp
  rcases hp with rfl | rfl | rfl | rfl
  · show k0_pay8 (View.ld s r0_0) (View.ld (colBlock t x) r0_1) z = stack s x (inStack t (r0_5.emb z))
    rw [View.ld_unit_zero hz2, View.ld_unit_zero hz2, pay8_colBlock]
    have hz0 : (z 0).val = 0 := by have h : (z 0).val < 1 := (z 0).isLt; omega
    refine slab_stack t s x 3 (by decide) (step3 s x) rfl z _ ?_ ?_ ?_
    · show 3 + 1 * (z 0).val = 3; omega
    · show 0 + 1 * (z 1).val = (z 1).val; omega
    · show 0 + 1 * (z 2).val = (z 2).val; omega
  · show k0_pay7 (View.ld s r0_0) (View.ld (colBlock t x) r0_1) z = stack s x (inStack t (r0_4.emb z))
    rw [View.ld_unit_zero hz2, View.ld_unit_zero hz2, pay7_colBlock]
    have hz0 : (z 0).val = 0 := by have h : (z 0).val < 1 := (z 0).isLt; omega
    refine slab_stack t s x 2 (by decide) (step2 s x) rfl z _ ?_ ?_ ?_
    · show 2 + 1 * (z 0).val = 2; omega
    · show 0 + 1 * (z 1).val = (z 1).val; omega
    · show 0 + 1 * (z 2).val = (z 2).val; omega
  · show k0_pay6 (View.ld s r0_0) (View.ld (colBlock t x) r0_1) z = stack s x (inStack t (r0_3.emb z))
    rw [View.ld_unit_zero hz2, View.ld_unit_zero hz2, pay6_colBlock]
    have hz0 : (z 0).val = 0 := by have h : (z 0).val < 1 := (z 0).isLt; omega
    refine slab_stack t s x 1 (by decide) (step1 s x) rfl z _ ?_ ?_ ?_
    · show 1 + 1 * (z 0).val = 1; omega
    · show 0 + 1 * (z 1).val = (z 1).val; omega
    · show 0 + 1 * (z 2).val = (z 2).val; omega
  · show k0_pay5 (View.ld (colBlock t x) r0_1) z = stack s x (inStack t (r0_2.emb z))
    rw [View.ld_unit_zero hz2, pay5_colBlock]
    have hz0 : (z 0).val = 0 := by have h : (z 0).val < 1 := (z 0).isLt; omega
    refine slab_stack t s x 0 (by decide) x rfl z _ ?_ ?_ ?_
    · show 0 + 1 * (z 0).val = 0; omega
    · show 0 + 1 * (z 1).val = (z 1).val; omega
    · show 0 + 1 * (z 2).val = (z 2).val; omega

/-- WHAT POINT t WRITES BACK is block t of the stack of the arrays the region was entered with. -/
theorem flushed_eq (c : Dev nD) (t : Fin cfg0.N) :
    (dat0 V c).flushed 2 t = ((cfg0.win 2).blk t).view.read (Elt Ideal) (stack (sArr V c) (xArr V c)) := by
  obtain ⟨-, -, -, -, e0, e1, e2⟩ := index_maps t
  have hout : out0_2 (F := Ideal) (sBlk V c t) (xBlk V c t) = fun w => stack (sArr V c) (xArr V c) (inStack (blockOf t) w) := by
    rw [sBlk_eq, xBlk_eq, out_colBlock]
  show (cfg0.win 2).cut (grid0.coords t) ((dat0 V c).after 2 t) = _
  rw [after0_2, hout]
  funext w
  show stack (sArr V c) (xArr V c) (inStack (blockOf t) w) = stack (sArr V c) (xArr V c) (((cfg0.win 2).blk t).view.emb w)
  refine congrArg _ (funext fun a => Fin.ext ?_)
  match a with
  | ⟨0, _⟩ => show (w 0).val = win0_2.index t (0 : Fin 3) * 4 + 1 * (w 0).val; rw [e0]; omega
  | ⟨1, _⟩ => show (w 1).val = win0_2.index t (1 : Fin 3) * 512 + 1 * (w 1).val; rw [e1]; omega
  | ⟨2, _⟩ => show 1024 * t.val + (w 2).val = win0_2.index t (2 : Fin 3) * 1024 + 1 * (w 2).val; rw [e2]; omega

/-- An index of the output array is in point t's block iff each coordinate is in the block's range on its axis. -/
theorem mem_blk (t : Fin cfg0.N) (i : S4x512x24576.Idx) :
    i ∈ ((cfg0.win 2).blk t).view.set ↔ ∀ a : Fin 3, win0_2.index t a * S4x512x1024.size a ≤ (i a).val ∧ (i a).val < win0_2.index t a * S4x512x1024.size a + S4x512x1024.size a := by
  show i ∈ ((View.whole main_v22).slice (win0_2.rect t)).set ↔ _
  rw [View.set_slice_whole, Rect.mem_set_unit]
  exact Iff.rfl

/-- THE OUTPUT ARRAY after the region: the stack of the two arrays it was entered with. Column c lies in the block of
    point c / 1024. -/
theorem final (c : Dev nD) : (dat0 V c).arrAt 2 cfg0.N = stack (sArr V c) (xArr V c) :=
  (dat0 V c).arrAt_eq_of_cover 2 (stack (sArr V c) (xArr V c)) (fun t _ => flushed_eq V c t) fun i => by
    have h0 : (i 0).val < 4 := (i 0).isLt
    have h1 : (i 1).val < 512 := (i 1).isLt
    have h2 : (i 2).val < 24576 := (i 2).isLt
    have hN : cfg0.N = 24 := N_0
    let t : Fin cfg0.N := ⟨(i 2).val / 1024, by omega⟩
    obtain ⟨-, -, -, -, e0, e1, e2⟩ := index_maps t
    refine ⟨t, flush0_2 t, ?_⟩
    rw [mem_blk]
    intro a
    match a with
    | ⟨0, _⟩ => show win0_2.index t (0 : Fin 3) * 4 ≤ (i 0).val ∧ (i 0).val < win0_2.index t (0 : Fin 3) * 4 + 4; rw [e0]; omega
    | ⟨1, _⟩ => show win0_2.index t (1 : Fin 3) * 512 ≤ (i 1).val ∧ (i 1).val < win0_2.index t (1 : Fin 3) * 512 + 512; rw [e1]; omega
    | ⟨2, _⟩ => show win0_2.index t (2 : Fin 3) * 1024 ≤ (i 2).val ∧ (i 2).val < win0_2.index t (2 : Fin 3) * 1024 + 1024; rw [e2]; show (i 2).val / 1024 * 1024 ≤ (i 2).val ∧ (i 2).val < (i 2).val / 1024 * 1024 + 1024; omega

end Cert.KernelIdeal.Diffusion

end
-- ==== Proof.Projection.lean ====
/-
  The final projection, whole and by row blocks.

  With X the 16384×3072 array of stacked diffusion states (one row per batch entry and node), W the 3072×768 weights
  and b the 768 biases, the reference computes X·W + b, the bias added to every row. Each output row reads one row of
  X only, so the kernel takes the rows 512 at a time: on row block t it multiplies that block with W and adds b to
  each of its rows. Here: the reference's projection in its own spelling, and that the kernel body's one store on row
  block t of X is row block t of the reference's projection of X.
-/
import proofs.«120347_j85452669321742_1_alg».proof.Proof.Products
import proofs.«120347_j85452669321742_1_alg».proof.Proof.Gen.KernelIdeal.Skeleton
import Idealize.ShloMosaic.Lib.Pipeline.Value

noncomputable section

open scoped BigOperators
open Idealize.ShloMosaic Idealize.ShloMosaic.ValueIdx Cert.Products

namespace Cert.Projection

section Reference
open Cert.ReferenceIdeal Cert.ReferenceIdeal.Gen

/-- The biases as a row, repeated over the 16384 rows. -/
def biasRows (b : FVec Ideal S768 .f32) : FVec Ideal S16384x768 .f32 :=
  broadcastInDim S16384x768 ![0, 1] bcast_S1x768_S16384x768_0_1 (broadcastInDim S1x768 ![1] bcast_S768_S1x768_1 b)

/-- X·W + b. -/
def project (X : FVec Ideal S16384x3072 .f32) (w : FVec Ideal S3072x768 .f32) (b : FVec Ideal S768 .f32) : FVec Ideal S16384x768 .f32 :=
  addf (Host.dotGeneral dot_S16384x3072_S3072x768_S16384x768_1_0_0_1_n_n none X w) (biasRows b)

/-- The reference's bias term at (r, c) is b at c. -/
theorem bias_reference (b : FVec Ideal S768 .f32) (i : S16384x768.Idx) :
    biasRows b i = b (ix1 ⟨(i 1).val, (i 1).isLt⟩) := by
  unfold biasRows
  refine (broadcastInDim_apply _ bcast_S1x768_S16384x768_0_1 _ i (ix2 ⟨0, Nat.one_pos⟩ ⟨(i 1).val, (i 1).isLt⟩) (fun a => match a with
    | ⟨0, _⟩ => by show 0 = if (1 : Nat) = 1 then 0 else (i 0).val; rw [if_pos rfl]
    | ⟨1, _⟩ => by show (i 1).val = if (768 : Nat) = 1 then 0 else (i 1).val; rw [if_neg (by decide)])).trans ?_
  exact broadcastInDim_apply _ bcast_S768_S1x768_1 b _ (ix1 ⟨(i 1).val, (i 1).isLt⟩) (fun a => match a with
    | ⟨0, _⟩ => by show (i 1).val = if (768 : Nat) = 1 then 0 else (i 1).val; rw [if_neg (by decide)])

end Reference

section Blocks
open Cert.KernelIdeal Cert.KernelIdeal.Gen

/-- Where entry (r, c) of row block t of the projection sits in the whole array: (512·t + r, c). -/
def inRows (t : Fin 32) (y : S512x768.Idx) : Cert.ReferenceIdeal.S16384x768.Idx :=
  at2 ⟨512 * t.val + (y 0).val, by
    have h0 : (y 0).val < 512 := (y 0).isLt
    have ht : t.val < 32 := t.isLt
    omega⟩ ⟨(y 1).val, (y 1).isLt⟩

/-- Row block t of a 16384×3072 array. -/
def rowBlock (t : Fin 32) (X : FVec Ideal Cert.ReferenceIdeal.S16384x3072 .f32) : FVec Ideal S512x3072 .f32 :=
  fun y => X (at2 ⟨512 * t.val + (y 0).val, by
    have h0 : (y 0).val < 512 := (y 0).isLt
    have ht : t.val < 32 := t.isLt
    omega⟩ ⟨(y 1).val, (y 1).isLt⟩)

/-- The kernel's bias term at (r, c) is b at c: the bias row broadcast over the block's rows. -/
theorem bias_kernel (b : FVec Ideal S768 .f32) (y : S512x768.Idx) :
    broadcastTo S512x768 (shapeCast S1x768 b shapeCasts_S768_S1x768) broadcasts_S1x768_S512x768 y = b (ix1 ⟨(y 1).val, (y 1).isLt⟩) := by
  refine (broadcastTo_apply _ broadcasts_S1x768_S512x768 y (ix2 ⟨0, Nat.one_pos⟩ ⟨(y 1).val, (y 1).isLt⟩) (fun a => match a with
    | ⟨0, _⟩ => by show 0 = if (1 : Nat) = 1 then 0 else _; rw [if_pos rfl]
    | ⟨1, _⟩ => by show (y 1).val = if (768 : Nat) = 1 then 0 else (y 1).val; rw [if_neg (by decide)])).trans ?_
  exact (shapeCast_addUnit_apply ![768] b shapeCasts_S768_S1x768 _).trans (congrArg b (funext fun a => match a with | ⟨0, _⟩ => rfl))

/-- The kernel body's store on row block t of X is row block t of the reference's projection of X. -/
theorem pay1_rowBlock (t : Fin 32) (X : FVec Ideal Cert.ReferenceIdeal.S16384x3072 .f32) (w : FVec Ideal S3072x768 .bf16) (b : FVec Ideal S768 .f32) :
    k1_pay1 (rowBlock t X) w b = fun y => project X w b (inRows t y) := by
  funext y
  unfold k1_pay1
  rw [shapeCast_self, shapeCast_self]
  show FloatOps.addf (matmul dot_S512x3072_S3072x768_S512x768_1_0_0_1_n_n none (truncf .bf16 (rowBlock t X) bitsLt_bf16_f32) w (constant S512x768 .f32 0x00000000#32) y)
      (broadcastTo S512x768 (shapeCast S1x768 b shapeCasts_S768_S1x768) broadcasts_S1x768_S512x768 y)
    = FloatOps.addf (Host.dotGeneral Cert.ReferenceIdeal.dot_S16384x3072_S3072x768_S16384x768_1_0_0_1_n_n none X w (inRows t y))
      (biasRows b (inRows t y))
  rw [kernel_projection_apply, reference_projection_apply, bias_kernel, bias_reference]
  rfl

end Blocks

end Cert.Projection

end
-- ==== Proof.Region1.lean ====
/-
  What the second pallas_call leaves in its output array.

  The region is entered with a 16384×3072 array X (its first window: row block t at point t), the 3072×768 weights and
  the 768 biases (one block each, the whole array at every point). At point t the body stores the product of row block
  t with the weights, the biases added to every row, into a 512×768 staging block, which the pipeline writes back as
  row block t of the 16384×768 output. The 32 row blocks tile the output and the block written at point t is block t
  of ONE array, the reference's projection of X (Projection.lean); so the output array ends holding that projection,
  whatever the region was entered with.
-/
import proofs.«120347_j85452669321742_1_alg».proof.Proof.Gen.KernelIdeal.Frame
import proofs.«120347_j85452669321742_1_alg».proof.Proof.Projection

set_option maxRecDepth 16384

noncomputable section

open Idealize.ShloMosaic Idealize.ShloMosaic.TcCoe Idealize.SL.Sem Idealize.ShloMosaic.ValueIdx
open Idealize.ShloMosaic.Pipeline (Dat)
open Cert.Products Cert.Projection

namespace Cert.KernelIdeal.Projected

open Cert.KernelIdeal Cert.KernelIdeal.Gen

variable (V : (c : Dev nD) → (b : Ref sig .tc) → Buf (Elt Ideal) ((c : Thread nD τ).loc b))

/-- The stacked diffusion states, the weights and the biases as the region finds them. -/
abbrev xArr (c : Dev nD) : FVec Ideal S16384x3072 .f32 := V c main_v25
abbrev wArr (c : Dev nD) : FVec Ideal S3072x768 .bf16 := V c main_v26
abbrev bArr (c : Dev nD) : FVec Ideal S768 .f32 := V c main_arg3
/-- The three input blocks at point t. -/
abbrev xBlk (c : Dev nD) (t : Fin cfg1.N) : FVec Ideal S512x3072 .f32 := iblk1 V c 0 t
abbrev wBlk (c : Dev nD) (t : Fin cfg1.N) : FVec Ideal S3072x768 .bf16 := iblk1 V c 1 t
abbrev bBlk (c : Dev nD) (t : Fin cfg1.N) : FVec Ideal S768 .f32 := iblk1 V c 2 t

/-- A grid point as a row-block number. -/
def blockOf (t : Fin cfg1.N) : Fin 32 := ⟨t.val, by have h := t.isLt; have e : cfg1.N = 32 := N_1; omega⟩

/-- The four index maps over the grid: the states' block and the output block move along the rows with the point; the
    weights' and the biases' blocks never move. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

theorem hz2 : (![0, 0] : Fin 2 → Nat) = fun _ => 0 := funext fun a => by fin_cases a <;> rfl
theorem hz1 : (![0] : Fin 1 → Nat) = fun _ => 0 := funext fun a => by fin_cases a; rfl

/-- The states' block at point t is row block t of the states. -/
theorem xBlk_eq (c : Dev nD) (t : Fin cfg1.N) : xBlk V c t = rowBlock (blockOf t) (xArr V c) := by
  obtain ⟨e0, e1, -⟩ := index_maps t
  funext y
  show V c main_v25 (((cfg1.win 0).blk t).view.emb y) = V c main_v25 (at2 ⟨512 * t.val + (y 0).val, _⟩ ⟨(y 1).val, _⟩)
  refine congrArg _ (funext fun a => Fin.ext ?_)
  match a with
  | ⟨0, _⟩ => show win1_0.index t (0 : Fin 2) * 512 + 1 * (y 0).val = 512 * t.val + (y 0).val; rw [e0]; omega
  | ⟨1, _⟩ => show win1_0.index t (1 : Fin 2) * 3072 + 1 * (y 1).val = (y 1).val; rw [e1]; omega

/-- The weights' block is the whole weights. -/
theorem wBlk_eq (c : Dev nD) (t : Fin cfg1.N) : wBlk V c t = wArr V c := by
  obtain ⟨-, -, e0, e1, -⟩ := index_maps t
  funext y
  show V c main_v26 (((cfg1.win 1).blk t).view.emb y) = V c main_v26 y
  refine congrArg _ (funext fun a => Fin.ext ?_)
  match a with
  | ⟨0, _⟩ => show win1_1.index t (0 : Fin 2) * 3072 + 1 * (y 0).val = (y 0).val; rw [e0]; omega
  | ⟨1, _⟩ => show win1_1.index t (1 : Fin 2) * 768 + 1 * (y 1).val = (y 1).val; rw [e1]; omega

/-- The biases' block is the whole biases. -/
theorem bBlk_eq (c : Dev nD) (t : Fin cfg1.N) : bBlk V c t = bArr V c := by
  obtain ⟨-, -, -, -, e0, -⟩ := index_maps t
  funext y
  show V c main_arg3 (((cfg1.win 2).blk t).view.emb y) = V c main_arg3 y
  refine congrArg _ (funext fun a => Fin.ext ?_)
  match a with
  | ⟨0, _⟩ => show win1_2.index t (0 : Fin 1) * 768 + 1 * (y 0).val = (y 0).val; rw [e0]; omega

/-- WHAT POINT t WRITES BACK is block t of the projection of the arrays the region was entered with. -/
theorem flushed_eq (c : Dev nD) (t : Fin cfg1.N) :
    (dat1 V c).flushed 3 t = ((cfg1.win 3).blk t).view.read (Elt Ideal) (project (xArr V c) (wArr V c) (bArr V c)) := by
  obtain ⟨-, -, -, -, -, e0, e1⟩ := index_maps t
  have hout : out1_3 (F := Ideal) (xBlk V c t) (wBlk V c t) (bBlk V c t)
      = fun y => project (xArr V c) (wArr V c) (bArr V c) (inRows (blockOf t) y) := by
    rw [xBlk_eq, wBlk_eq, bBlk_eq]
    unfold out1_3
    rw [View.canon_unit_zero hz2, View.ld_unit_zero hz2, View.ld_unit_zero hz2, View.ld_unit_zero hz1, pay1_rowBlock]
  show (cfg1.win 3).cut (grid1.coords t) ((dat1 V c).after 3 t) = _
  rw [after1_3, hout]
  funext w
  show project (xArr V c) (wArr V c) (bArr V c) (inRows (blockOf t) w) = project (xArr V c) (wArr V c) (bArr V c) (((cfg1.win 3).blk t).view.emb w)
  refine congrArg _ (funext fun a => Fin.ext ?_)
  match a with
  | ⟨0, _⟩ => show 512 * t.val + (w 0).val = win1_3.index t (0 : Fin 2) * 512 + 1 * (w 0).val; rw [e0]; omega
  | ⟨1, _⟩ => show (w 1).val = win1_3.index t (1 : Fin 2) * 768 + 1 * (w 1).val; rw [e1]; omega

/-- An index of the output array is in point t's block iff each coordinate is in the block's range on its axis. -/
theorem mem_blk (t : Fin cfg1.N) (i : S16384x768.Idx) :
    i ∈ ((cfg1.win 3).blk t).view.set ↔ ∀ a : Fin 2, win1_3.index t a * S512x768.size a ≤ (i a).val ∧ (i a).val < win1_3.index t a * S512x768.size a + S512x768.size a := by
  show i ∈ ((View.whole main_v27).slice (win1_3.rect t)).set ↔ _
  rw [View.set_slice_whole, Rect.mem_set_unit]
  exact Iff.rfl

/-- THE OUTPUT ARRAY after the region: the projection of the three arrays it was entered with. Row r lies in the block
    of point r / 512. -/
theorem final (c : Dev nD) : (dat1 V c).arrAt 3 cfg1.N = project (xArr V c) (wArr V c) (bArr V c) :=
  (dat1 V c).arrAt_eq_of_cover 3 (project (xArr V c) (wArr V c) (bArr V c)) (fun t _ => flushed_eq V c t) fun i => by
    have h0 : (i 0).val < 16384 := (i 0).isLt
    have h1 : (i 1).val < 768 := (i 1).isLt
    have hN : cfg1.N = 32 := N_1
    let t : Fin cfg1.N := ⟨(i 0).val / 512, by omega⟩
    obtain ⟨-, -, -, -, -, e0, e1⟩ := index_maps t
    refine ⟨t, flush1_3 t, ?_⟩
    rw [mem_blk]
    intro a
    match a with
    | ⟨0, _⟩ => show win1_3.index t (0 : Fin 2) * 512 ≤ (i 0).val ∧ (i 0).val < win1_3.index t (0 : Fin 2) * 512 + 512; rw [e0]; show (i 0).val / 512 * 512 ≤ (i 0).val ∧ (i 0).val < (i 0).val / 512 * 512 + 512; omega
    | ⟨1, _⟩ => show win1_3.index t (1 : Fin 2) * 768 ≤ (i 1).val ∧ (i 1).val < win1_3.index t (1 : Fin 2) * 768 + 768; rw [e1]; omega

end Cert.KernelIdeal.Projected

end
-- ==== Proof.Boundaries.lean ====
/-
  The kernel program's result, read from the launch to the return.

  @main computes the diffusion matrix and the feature array by host operations, runs the first pallas_call on them,
  re-lays its output by host operations, runs the second pallas_call on that with the weights and the biases, and
  reshapes its output into the result. The host operations before and between the calls are, operation for
  operation, the reference's own (the casts to bf16 are the identity at the ideal values), and each call leaves in
  its output array the reference's stage of the arrays it was entered with (Region0.lean, Region1.lean). So each
  boundary's contents is a stage of the reference at the launch arguments, and the result is the reference's result.
-/
import proofs.«120347_j85452669321742_1_alg».proof.Proof.Gen.KernelIdeal.Frame
import proofs.«120347_j85452669321742_1_alg».proof.Proof.Gen.ReferenceIdeal.Read
import proofs.«120347_j85452669321742_1_alg».proof.Proof.Region0
import proofs.«120347_j85452669321742_1_alg».proof.Proof.Region1
import Idealize.ShloMosaic.Lib.StableHlo.Run

set_option maxRecDepth 16384

noncomputable section

open Idealize.ShloMosaic Idealize.ShloMosaic.TcCoe Idealize.SL.Sem Idealize.ShloMosaic.StableHlo
open Cert.ReferenceIdeal.Read (val_main_v18 val_main_v20 val_main_v34 val_main_v37 val_main_v41 val_main_v42)

namespace Cert.KernelIdeal.Boundaries

open Cert.KernelIdeal Cert.KernelIdeal.Gen

variable (m : (ℓ : Loc nD τ sig) → Buf (Elt Ideal) ℓ) (ρ : Dev nD → PrngReg)

/-- The four argument arrays as launched. -/
abbrev arg0 (c : Dev nD) : FVec Ideal S32x512x768 .f32 := m ((c.tc : Thread nD τ).loc main_arg0)
abbrev arg1 (c : Dev nD) : FVec Ideal S512x512 .f32 := m ((c.tc : Thread nD τ).loc main_arg1)
abbrev arg2 (c : Dev nD) : FVec Ideal S3072x768 .f32 := m ((c.tc : Thread nD τ).loc main_arg2)
abbrev arg3 (c : Dev nD) : FVec Ideal S768 .f32 := m ((c.tc : Thread nD τ).loc main_arg3)

/-- The first call is entered with the reference's diffusion matrix of the adjacency argument … -/
theorem entry0_s (c : Dev nD) : Diffusion.sArr (V5 m ρ) c = val_main_v18 (F := Ideal) (arg1 m c) := by
  show StableHlo.after hostOps0_4 (StableHlo.after hostOps0_3 (StableHlo.after hostOps0_2 (StableHlo.after hostOps0_1
    (StableHlo.after hostOps0 (W0 m ρ c))))) (Proc.devRef .tc main_v19) = _
  after_results_simp
  rfl

/-- … and with the reference's feature array of the inputs argument. -/
theorem entry0_x (c : Dev nD) : Diffusion.xArr (V5 m ρ) c = val_main_v20 (F := Ideal) (arg0 m c) := by
  show StableHlo.after hostOps0_4 (StableHlo.after hostOps0_3 (StableHlo.after hostOps0_2 (StableHlo.after hostOps0_1
    (StableHlo.after hostOps0 (W0 m ρ c))))) (Proc.devRef .tc main_v21) = _
  after_results_simp
  rfl

/-- So it leaves the reference's stacked diffusion states in its output array. -/
theorem exit0 (c : Dev nD) : W6 m ρ c (Proc.devRef .tc main_v22) = val_main_v34 (F := Ideal) (arg0 m c) (arg1 m c) :=
  (W6_arr m ρ c 2).trans ((Diffusion.final (V5 m ρ) c).trans
    ((congrArg₂ Cert.Recurrence.stack (entry0_s m ρ c) (entry0_x m ρ c)).trans rfl))

/-- An argument array no host stretch and no region writes is at the first call's exit what it was at launch. -/
theorem kept2 (c : Dev nD) : W6 m ρ c (Proc.devRef .tc main_arg2) = arg2 m c := by
  rw [W6_of_ne m ρ c main_arg2 (by decide)]
  show StableHlo.after hostOps0_4 (StableHlo.after hostOps0_3 (StableHlo.after hostOps0_2 (StableHlo.after hostOps0_1
    (StableHlo.after hostOps0 (W0 m ρ c))))) (Proc.devRef .tc main_arg2) = _
  after_results_simp
theorem kept3 (c : Dev nD) : W6 m ρ c (Proc.devRef .tc main_arg3) = arg3 m c := by
  rw [W6_of_ne m ρ c main_arg3 (by decide)]
  show StableHlo.after hostOps0_4 (StableHlo.after hostOps0_3 (StableHlo.after hostOps0_2 (StableHlo.after hostOps0_1
    (StableHlo.after hostOps0 (W0 m ρ c))))) (Proc.devRef .tc main_arg3) = _
  after_results_simp

/-- The second call is entered with the reference's re-laid diffusion states, … -/
theorem entry1_x (c : Dev nD) : Projected.xArr (V7 m ρ) c = val_main_v37 (F := Ideal) (arg0 m c) (arg1 m c) := by
  show StableHlo.after hostOps1 (W6 m ρ c) (Proc.devRef .tc main_v25) = _
  after_results
  rw [exit0 m ρ c]
  rfl

/-- … the weights argument (its cast to bf16 the identity) … -/
theorem entry1_w (c : Dev nD) : Projected.wArr (V7 m ρ) c = arg2 m c := by
  show StableHlo.after hostOps1 (W6 m ρ c) (Proc.devRef .tc main_v26) = _
  after_results
  rw [kept2 m ρ c]
  rfl

/-- … and the biases argument. -/
theorem entry1_b (c : Dev nD) : Projected.bArr (V7 m ρ) c = arg3 m c := by
  show StableHlo.after hostOps1 (W6 m ρ c) (Proc.devRef .tc main_arg3) = _
  after_results
  exact kept3 m ρ c

/-- So it leaves the reference's projected array in its output array. -/
theorem exit1 (c : Dev nD) :
    W8 m ρ c (Proc.devRef .tc main_v27) = val_main_v41 (F := Ideal) (arg0 m c) (arg1 m c) (arg2 m c) (arg3 m c) := by
  refine (W8_arr m ρ c 3).trans ((Projected.final (V7 m ρ) c).trans ?_)
  rw [entry1_x m ρ c, entry1_w m ρ c, entry1_b m ρ c]
  rfl

/-- THE RESULT: the last boundary's contents at the result array is the reference's result at the launch arguments. -/
theorem result (c : Dev nD) :
    W9 m ρ c (Proc.devRef .tc main_v28) = val_main_v42 (F := Ideal) (arg0 m c) (arg1 m c) (arg2 m c) (arg3 m c) := by
  show StableHlo.after hostOps2 (W8 m ρ c) (Proc.devRef .tc main_v28) = _
  after_results
  rw [exit1 m ρ c]
  rfl

end Cert.KernelIdeal.Boundaries

end
-- ==== Proof.lean ====
/-
  The diffusion-convolution layer: a Pallas kernel program against its jnp reference, over the extended reals.

  Both programs normalise the adjacency matrix into a diffusion matrix s, lay the inputs out as a 512×24576 array x
  (one column per feature and batch entry), run the recurrence x₁ = s·x, x₂ = 2·(s·x₁) − x, x₃ = 2·(s·x₂) − x₁, stack
  x, x₁, x₂, x₃, re-lay the stack as a 16384×3072 array X and return X·W + b. The kernel program does the recurrence in
  one pallas_call over 24 column blocks of x and the projection in a second one over 32 row blocks of X, with bf16
  operands on the matrix unit; at the ideal values a change of float format is the identity and a matrix product is a
  plain sum of products, so every block the kernel computes is the corresponding block of the reference's array
  (Recurrence.lean, Projection.lean), the blocks tile the arrays (Region0.lean, Region1.lean), and the host operations
  around the calls are the reference's own (Boundaries.lean). No law beyond "the same sum" joins the two sides, so the
  precondition is not used: the claim holds for every extended-real input.

  The frames of the two kernel programs are the generated ones; the reference's frame is its generated run with the
  result dropped; the idealization rewrote nothing, so `preserves` is `True`.
-/
import proofs.«120347_j85452669321742_1_alg».proof.Defs
import proofs.«120347_j85452669321742_1_alg».proof.Proof.Gen.Kernel
import proofs.«120347_j85452669321742_1_alg».proof.Proof.Gen.Kernel.Skeleton
import proofs.«120347_j85452669321742_1_alg».proof.Proof.Gen.Kernel.Launch
import proofs.«120347_j85452669321742_1_alg».proof.Proof.Gen.Kernel.Points
import proofs.«120347_j85452669321742_1_alg».proof.Proof.Gen.Kernel.Frame
import proofs.«120347_j85452669321742_1_alg».proof.Proof.Gen.KernelIdeal
import proofs.«120347_j85452669321742_1_alg».proof.Proof.Gen.KernelIdeal.Skeleton
import proofs.«120347_j85452669321742_1_alg».proof.Proof.Gen.KernelIdeal.Launch
import proofs.«120347_j85452669321742_1_alg».proof.Proof.Gen.KernelIdeal.Points
import proofs.«120347_j85452669321742_1_alg».proof.Proof.Gen.KernelIdeal.Frame
import proofs.«120347_j85452669321742_1_alg».proof.Proof.Gen.ReferenceIdeal
import proofs.«120347_j85452669321742_1_alg».proof.Proof.Gen.ReferenceIdeal.Run
import proofs.«120347_j85452669321742_1_alg».proof.Proof.Gen.ReferenceIdeal.Read
import proofs.«120347_j85452669321742_1_alg».proof.Proof.Gen.Pre_finite_inputs
import proofs.«120347_j85452669321742_1_alg».proof.Proof.KernelRun
import proofs.«120347_j85452669321742_1_alg».proof.Proof.Boundaries
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the reference's staged result of the launch arguments in their result arrays: the kernel
    program by the boundaries' reading of its run, the reference by its own run, the arguments agreeing. -/
theorem algebraic : Cert.algebraic_KernelIdeal_ReferenceIdeal := by
  intro m ρ m' ρ' _ hagree
  refine ⟨fun c => Cert.ReferenceIdeal.Read.val_main_v42 (F := Ideal) (Cert.KernelIdeal.Boundaries.arg0 m c)
    (Cert.KernelIdeal.Boundaries.arg1 m c) (Cert.KernelIdeal.Boundaries.arg2 m c) (Cert.KernelIdeal.Boundaries.arg3 m c), ?_, ?_⟩
  · exact (θ_run Cert.KernelIdeal.defs _ _).mono
      (fun r h c => ⟨(h c).1.trans (Cert.KernelIdeal.Boundaries.result m ρ c), (h c).2⟩)
      (Cert.KernelIdeal.Result.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v42_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
